-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x9 : Shape := ⟨3, ![8192, 128, 9]⟩
abbrev S8192x256 : Shape := ⟨2, ![8192, 256]⟩
abbrev S8192 : Shape := ⟨1, ![8192]⟩
abbrev S_ : Shape := ⟨0, ![]⟩

class Facts : Prop where
  bcast_S_S8192x128x9 : S_.BroadcastsInDim S8192x128x9 (![] : Fin 0 → Fin S8192x128x9.rank)
  reducesTo_S8192x128x9_S_d0_1_2 : S8192x128x9.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x128x9 .f32) (main_arg1 : FVec F S8192x128x9 .f32) (main_arg2 : FVec F S8192x256 .f32) (main_arg3 : IVec S8192 32) : IVec S_ 1 :=
  let main_v0 : FVec F S8192x128x9 .f32 := Host.absf main_arg0
  let main_cst : FVec F S_ .f32 := constant S_ .f32 0x7F800000#32
  let main_v1 : FVec F S8192x128x9 .f32 := broadcastInDim S8192x128x9 ![] bcast_S_S8192x128x9 main_cst
  let main_v2 : IVec S8192x128x9 1 := cmpf .olt main_v0 main_v1
  let main_c : IVec S_ 1 := constantI S_ 1 1#1
  let main_v3 : IVec S_ 1 := (fun x v => Host.reduce IntOp.andi x v reducesTo_S8192x128x9_S_d0_1_2 h_S_) main_v2 main_c
  let main_v4 : FVec F S8192x128x9 .f32 := Host.absf main_arg1
  let main_cst_0 : FVec F S_ .f32 := constant S_ .f32 0x7F800000#32
  let main_v5 : FVec F S8192x128x9 .f32 := broadcastInDim S8192x128x9 ![] bcast_S_S8192x128x9 main_cst_0
  let main_v6 : IVec S8192x128x9 1 := cmpf .olt main_v4 main_v5
  let main_c_1 : IVec S_ 1 := constantI S_ 1 1#1
  let main_v7 : IVec S_ 1 := (fun x v => Host.reduce IntOp.andi x v reducesTo_S8192x128x9_S_d0_1_2 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x128x9 : Shape := ⟨3, ![8192, 128, 9]⟩
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S1 : Shape := ⟨1, ![1]⟩
abbrev S_ : Shape := ⟨0, ![]⟩

abbrev nBuf : Space → Nat
  | .hbm => 19
  | .vmem => 7
  | .smem => 0
  | _ => 0

abbrev bufTy : (tb : Table) → Fin (tcTables nBuf tb) → BufTy
  | .hbm, ⟨0, _⟩ => ⟨S8192x128x9, .f32⟩
  | .hbm, ⟨1, _⟩ => ⟨S8192x128x9, .f32⟩
  | .hbm, ⟨2, _⟩ => ⟨S8192x256, .f32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8192x256, .f32⟩
  | .local _ .vmem, ⟨1, _⟩ => ⟨S8192x1, .i32⟩
  | .local _ .vmem, ⟨2, _⟩ => ⟨S1x8192, .i32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S8192x128x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c512_i32_2 : BitVec 32 := 512#32
  let v7 : BitVec 32 := Scalar.muli arg1 c512_i32_2
  v7
def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v9 : Index := Scalar.indexCast v6
  let c0 : Index := 0#32
  ![v9.toNat, 0]
def k0_off2 (i : grid0.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v11 : Index := Scalar.indexCast v8
  let c0_3 : Index := 0#32
  ![v11.toNat, 0]
def k0_off3 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v32 : Index := Scalar.indexCast v6
  let c0_8 : Index := 0#32
  ![v32.toNat, 0]
def k0_off4 (i : grid0.Coords) : Fin 2 → Nat :=
  let c0_9 : Index := 0#32
  let arg1 : BitVec 32 := BitVec.ofNat 32 (i 1).val
  let c512_i32_2 : BitVec 32 := 512#32
  let v7 : BitVec 32 := Scalar.muli arg1 c512_i32_2
  let v8 : BitVec 32 := v7
  let v35 : Index := Scalar.indexCast v8
  ![0, v35.toNat]
def k0_cond2 (i : grid0.Coords) : BitVec 1 :=
  let arg0 : BitVec 32 := BitVec.ofNat 32 (i 0).val
  let c15_i32 : BitVec 32 := 15#32
  let v73 : BitVec 1 := Scalar.cmpi .eq arg0 c15_i32
  let arg1 : BitVec 32 := BitVec.ofNat 32 (i 1).val
  let c15_i32_25 : BitVec 32 := 15#32
  let v74 : BitVec 1 := Scalar.cmpi .eq arg1 c15_i32_25
  let v75 : BitVec 1 := Scalar.andi v73 v74
  let v76 : BitVec 32 := Scalar.extui v75
  let c0_i32_26 : BitVec 32 := 0#32
  let v77 : BitVec 1 := Scalar.cmpi .ne v76 c0_i32_26
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512x256 : 0 < S512x256.numel
  reduces_S512x256_S512 : S512x256.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x256_p1_0_S256x512 : S512x256.Transposes [1, 0] S256x512
  broadcasts_S512x1_S512x512 : S512x1.Broadcasts S512x512
  broadcasts_S1x512_S512x512 : S1x512.Broadcasts S512x512
  h_S512x1 : 0 < S512x1.numel
  shapeCasts_S512x1_S512x1 : S512x1.ShapeCasts S512x1
  h_S1x512 : 0 < S1x512.numel
  shapeCasts_S1x512_S1x512 : S1x512.ShapeCasts S1x512
  natLt_1_32 : 1 < 32
  reduces_S512x512_S512 : S512x512.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  dot_S512x256_S256x512_S512x512_1_0_0_1_n_n_wf : DotDims.WF S512x256 S256x512 S512x512 [1] [0] [0] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x256.size a ≤ S8192x256.size a
  k0_off2_inb : ∀ i : grid0.Coords, ∀ a, (k0_off2 i) a + S512x256.size a ≤ S8192x256.size a
  k0_off3_inb : ∀ i : grid0.Coords, ∀ a, (k0_off3 i) a + S512x1.size a ≤ S8192x1.size a
  k0_off4_inb : ∀ i : grid0.Coords, ∀ a, (k0_off4 i) a + S1x512.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8192x1.size a
  hwx0_1 : ∀ i : grid0.Coords, EltTy.bits .i32 = 32 ∨ (Rect.block (s := S8192x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg2) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128x9 : Shape := ⟨3, ![8192, 128, 9]⟩
abbrev S8192x256 : Shape := ⟨2, ![8192, 256]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x128x9, .f32⟩
  | .hbm, ⟨1, _⟩ => ⟨S8192x128x9, .f32⟩
  | .hbm, ⟨2, _⟩ => ⟨S8192x256, .f32⟩
  | .hbm, ⟨3, _⟩ => ⟨S8192, .i32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x128x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.KStep.lean ====
/-
  What one grid point does to the two running sums, read off the pieces the body's run found.

  At a point the body forms, from the rows of tile i₀ and of tile i₁ of the staged sample matrix, the 512 × 512 tile of
  mean squared distances, and from the labels of the two tiles the tile of label agreements; it adds the sum of
  agreement · distance over the tile to the first running sum and the sum of max 0 ((1 − agreement)·(1 − distance))
  to the second.  At the first point the running sums start from zero; at the last point they are also copied to the
  two output blocks.
-/
import proofs.«125821_j61418032333461_1_alg».proof.Proof.Gen.KernelIdeal.Frame
import Idealize.ShloMosaic.Lib.Pipeline.Value
import Idealize.ShloMosaic.Lib.Tactic

noncomputable section

namespace Cert.KernelIdeal.PairValue

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The tile of mean squared distances at point `i`, from the whole staged sample matrix. -/
def distTile (i : grid0.Coords) (x0 : Vec F S8192x256 .f32) : FVec F S512x512 .f32 :=
  k0_pay5 (View.ld x0 (Rect.unit (k0_off1 i) S512x256.size (k0_off1_inb i)))
    (View.ld x0 (Rect.unit (k0_off2 i) S512x256.size (k0_off2_inb i)))

/-- The tile of label agreements at point `i`, from the labels as a column and as a row. -/
def sameTile (i : grid0.Coords) (x1 : Vec F S8192x1 .i32) (x2 : Vec F S1x8192 .i32) : FVec F S512x512 .f32 :=
  k0_pay6 (View.ld x1 (Rect.unit (k0_off3 i) S512x1.size (k0_off3_inb i)))
    (View.ld x2 (Rect.unit (k0_off4 i) S1x512.size (k0_off4_inb i)))

/-- One point's step of the first running sum, and of the second. -/
def stepSame (i : grid0.Coords) (x0 : Vec F S8192x256 .f32) (x1 : Vec F S8192x1 .i32) (x2 : Vec F S1x8192 .i32)
    (acc : Vec F S1x1 .f32) : Vec F S1x1 .f32 := k0_pay1 (distTile i x0) (sameTile i x1 x2) acc
def stepDiff (i : grid0.Coords) (x0 : Vec F S8192x256 .f32) (x1 : Vec F S8192x1 .i32) (x2 : Vec F S1x8192 .i32)
    (acc : Vec F S1x1 .f32) : Vec F S1x1 .f32 := k0_pay2 (distTile i x0) (sameTile i x1 x2) acc

section cases
variable (c : Dev nD) (i : grid0.Coords) (arg2 : Memref sig .tc .vmem S8192x256 .f32) (harg2 : arg2.IsWhole) (arg3 : Memref sig .tc .vmem S8192x1 .i32) (harg3 : arg3.IsWhole) (arg4 : Memref sig .tc .vmem S1x8192 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
  (x0 : Vec F S8192x256 .f32) (x1 : Vec F S8192x1 .i32) (x2 : Vec F S1x8192 .i32)

/-- The first point: each running sum is reset to zero, then stepped. -/
theorem soutA0 (hc0 : cond0_0 i) (hc1 : ¬cond0_1 i) :
    sout0_A_0 c i arg2 harg2 arg3 harg3 arg4 harg4 arg5 harg5 arg6 harg6 arg7 harg7 arg8 harg8 hc0 hc1 x0 x1 x2 = stepSame i x0 x1 x2 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread]
  rfl

theorem soutA1 (hc0 : cond0_0 i) (hc1 : ¬cond0_1 i) :
    sout0_A_1 c i arg2 harg2 arg3 harg3 arg4 harg4 arg5 harg5 arg6 harg6 arg7 harg7 arg8 harg8 hc0 hc1 x0 x1 x2 = stepDiff i x0 x1 x2 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread]
  rfl

variable (xs0 xs1 : Vec F S1x1 .f32)

/-- A middle point: each running sum is stepped from what the point before left. -/
theorem soutB0 (hc0 : ¬cond0_0 i) (hc1 : ¬cond0_1 i) :
    sout0_B_0 c i arg2 harg2 arg3 harg3 arg4 harg4 arg5 harg5 arg6 harg6 arg7 harg7 arg8 harg8 hc0 hc1 x0 x1 x2 xs0 xs1 = stepSame i x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread,
    View.ld_unit_zero (S := S1x1) hz]
  rfl

theorem soutB1 (hc0 : ¬cond0_0 i) (hc1 : ¬cond0_1 i) :
    sout0_B_1 c i arg2 harg2 arg3 harg3 arg4 harg4 arg5 harg5 arg6 harg6 arg7 harg7 arg8 harg8 hc0 hc1 x0 x1 x2 xs0 xs1 = stepDiff i x0 x1 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg8.read_unread,
    View.ld_unit_zero (S := S1x1) hz]
  rfl

/-- The last point: the same steps, -/
theorem soutC0 (hc0 : ¬cond0_0 i) (hc1 : cond0_1 i) :
    sout0_C_0 c i arg2 harg2 arg3 harg3 arg4 harg4 arg5 harg5 arg6 harg6 arg7 harg7 arg8 harg8 hc0 hc1 x0 x1 x2 xs0 xs1 = stepSame i x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread,
    View.ld_unit_zero (S := S1x1) hz]
  rfl

theorem soutC1 (hc0 : ¬cond0_0 i) (hc1 : cond0_1 i) :
    sout0_C_1 c i arg2 harg2 arg3 harg3 arg4 harg4 arg5 harg5 arg6 harg6 arg7 harg7 arg8 harg8 hc0 hc1 x0 x1 x2 xs0 xs1 = stepDiff i x0 x1 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg8.read_unread,
    View.ld_unit_zero (S := S1x1) hz]
  rfl

/-- and each output block receives the stepped running sum. -/
theorem outC3 (hc0 : ¬cond0_0 i) (hc1 : cond0_1 i) :
    out0_C_3 c i arg2 harg2 arg3 harg3 arg4 harg4 arg5 harg5 arg6 harg6 arg7 harg7 arg8 harg8 hc0 hc1 x0 x1 x2 xs0 xs1 = stepSame i x0 x1 x2 xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S1x1) _ hz]
  simp only [View.readAt_eq_ld, harg2.read_unread, harg3.read_unread, harg4.read_unread, harg7.read_unread,
    View.ld_unit_zero (S := S1x1) hz]
  rfl

theorem outC4 (hc0 : ¬cond0_0 i) (hc1 : cond0_1 i) :
    out0_C_4 c i arg2 harg2 arg3 harg3 arg4 harg4 arg5 harg5 arg6 harg6 arg7 harg7 arg8 harg8 hc0 hc1 x0 x1 x2 xs0 xs1 = stepDiff i x0 x1 x2 xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S1x1) _ hz]
  simp only [View.readAt_eq_ld, harg2.read_unread, harg3.read_unread, harg4.read_unread, harg8.read_unread,
    View.ld_unit_zero (S := S1x1) hz]
  rfl

end cases

end Cert.KernelIdeal.PairValue

end
-- ==== Proof.PairSpec.lean ====
/-
  The pairwise label loss as one function of the sample matrix and the label vector, over the extended reals,
  and the two facts about sums that join a tiled accumulation to it.

  For samples X (8192 rows of 256 numbers) and labels L (8192 words):
    sqn i      = Σₖ X(i,k)²                      the squared norm of row i
    gram i j   = Σₖ X(i,k)·X(j,k)                the inner product of rows i and j
    dist i j   = (sqn i + sqn j − 2·gram i j)·(1/256)   the mean squared distance of rows i and j
    same i j   = 1 if L i = L j, else 0
    fSame i j  = same i j · dist i j
    fDiff i j  = max 0 ((1 − same i j)·(1 − dist i j))
    loss       = 10·((Σᵢⱼ fSame i j)/8192²) + 10·((Σᵢⱼ fDiff i j)/8192²)

  The index range 0 … 8191 is 16 tiles of 512 consecutive rows; a sum over all pairs (i, j) is the sum over the
  16 × 16 pairs of tiles of the sum over the 512 × 512 pairs inside (`sum_pairs_tiled`), and the 256 pairs of tiles
  visited in row-major order, t ↦ (t / 16, t mod 16), are all of them (`sum_grid`).  A running sum started at z
  and advanced by one term per step is z plus the sum of the terms (`chain_eq`).  Division by 256 is
  multiplication by the dyadic 1/256 at every extended real (`div_256`).
-/
import Idealize.ShloMosaic.PureOps.Ideal.Laws
import Idealize.ShloMosaic.Lib.ValueIdx
import Mathlib.Algebra.BigOperators.Fin
import Mathlib.Logic.Equiv.Fin.Basic

noncomputable section

namespace Cert.PairLoss

open Idealize.ShloMosaic Idealize.ShloMosaic.ValueIdx
open scoped BigOperators

/-- The sample matrix's and the label vector's shapes. -/
abbrev SX : Shape := ⟨2, ![8192, 256]⟩
abbrev SL : Shape := ⟨1, ![8192]⟩

/-- Row r of tile I: the row 512·I + r of the whole range. -/
def row (I : Fin 16) (r : Fin 512) : Fin 8192 := ⟨I.val * 512 + r.val, by have := I.isLt; have := r.isLt; omega⟩

theorem row_val (I : Fin 16) (r : Fin 512) : (row I r).val = I.val * 512 + r.val := rfl

/-! ## The loss -/

section
variable (X : SX.Idx → EReal) (L : SL.Idx → BitVec 32)

def sqn (i : Fin 8192) : EReal := ∑ k : Fin 256, X (ix2 i k) * X (ix2 i k)
def gram (i j : Fin 8192) : EReal := ∑ k : Fin 256, X (ix2 i k) * X (ix2 j k)
def dist (i j : Fin 8192) : EReal :=
  ((sqn X i + sqn X j) - Ideal.ofBits .f32 0x40000000#32 * gram X i j) * Ideal.ofBits .f32 0x3B800000#32
def same (i j : Fin 8192) : EReal := (((IntOp.cmpi .eq (L (ix1 i)) (L (ix1 j))).toNat : ℝ) : EReal)
def fSame (i j : Fin 8192) : EReal := same L i j * dist X i j
def fDiff (i j : Fin 8192) : EReal :=
  max (Ideal.ofBits .f32 0x00000000#32)
    ((Ideal.ofBits .f32 0x3F800000#32 - same L i j) * (Ideal.ofBits .f32 0x3F800000#32 - dist X i j))

/-- One tile pair's share of each sum. -/
def tileSame (I J : Fin 16) : EReal := ∑ r : Fin 512, ∑ c : Fin 512, fSame X L (row I r) (row J c)
def tileDiff (I J : Fin 16) : EReal := ∑ r : Fin 512, ∑ c : Fin 512, fDiff X L (row I r) (row J c)

/-- The loss from the two totals. -/
def lossOf (sSame sDiff : EReal) : EReal :=
  Ideal.ofBits .f32 0x41200000#32 * Ideal.div sSame (Ideal.ofBits .f32 0x4C800000#32)
    + Ideal.ofBits .f32 0x41200000#32 * Ideal.div sDiff (Ideal.ofBits .f32 0x4C800000#32)

def loss : EReal := lossOf (∑ i : Fin 8192, ∑ j : Fin 8192, fSame X L i j) (∑ i : Fin 8192, ∑ j : Fin 8192, fDiff X L i j)

end

/-! ## Sums over tiles -/

/-- A sum over the 8192 rows is the sum over the 16 tiles of the sum over a tile's 512 rows. -/
theorem sum_rows {M : Type*} [AddCommMonoid M] (h : Fin 8192 → M) :
    ∑ I : Fin 16, ∑ r : Fin 512, h (row I r) = ∑ i : Fin 8192, h i := by
  rw [← Fintype.sum_prod_type' (fun (I : Fin 16) (r : Fin 512) => h (row I r))]
  refine Fintype.sum_equiv (finProdFinEquiv (m := 16) (n := 512)) _ _ (fun p => ?_)
  congr 1
  apply Fin.ext
  rw [finProdFinEquiv_apply_val, row_val]
  omega

/-- A sum over all pairs of rows is the sum over the pairs of tiles of the sum over the pairs inside. -/
theorem sum_pairs_tiled {M : Type*} [AddCommMonoid M] (f : Fin 8192 → Fin 8192 → M) :
    ∑ I : Fin 16, ∑ J : Fin 16, ∑ r : Fin 512, ∑ c : Fin 512, f (row I r) (row J c)
      = ∑ i : Fin 8192, ∑ j : Fin 8192, f i j := by
  rw [← sum_rows (fun i => ∑ j : Fin 8192, f i j)]
  refine Finset.sum_congr rfl fun I _ => ?_
  rw [Finset.sum_comm]
  refine Finset.sum_congr rfl fun r _ => ?_
  exact sum_rows (fun j => f (row I r) j)

/-- The 256 grid points in row-major order visit every pair of tiles once. -/
theorem sum_grid {M : Type*} [AddCommMonoid M] (g : Fin 16 → Fin 16 → M) :
    ∑ t : Fin 256, g ⟨t.val / 16, by have := t.isLt; omega⟩ ⟨t.val % 16, Nat.mod_lt _ (by norm_num)⟩
      = ∑ I : Fin 16, ∑ J : Fin 16, g I J := by
  rw [← Fintype.sum_prod_type' g]
  refine (Fintype.sum_equiv (finProdFinEquiv (m := 16) (n := 16)) _ _ (fun p => ?_)).symm
  have h1 : (finProdFinEquiv (m := 16) (n := 16) p).val = p.2.val + 16 * p.1.val := finProdFinEquiv_apply_val p
  have e1 : (⟨(finProdFinEquiv (m := 16) (n := 16) p).val / 16, by have := (finProdFinEquiv (m := 16) (n := 16) p).isLt; omega⟩ : Fin 16) = p.1 :=
    Fin.ext (by show (finProdFinEquiv (m := 16) (n := 16) p).val / 16 = p.1.val; rw [h1]; have := p.2.isLt; omega)
  have e2 : (⟨(finProdFinEquiv (m := 16) (n := 16) p).val % 16, Nat.mod_lt _ (by norm_num)⟩ : Fin 16) = p.2 :=
    Fin.ext (by show (finProdFinEquiv (m := 16) (n := 16) p).val % 16 = p.2.val; rw [h1]; have := p.2.isLt; omega)
  rw [e1, e2]

/-! ## A running sum -/

/-- The running sum: started at `z` plus the first term, advanced by one term a step. -/
def chain {M : Type*} [Add M] (z : M) (T : ℕ → M) : ℕ → M
  | 0 => z + T 0
  | n + 1 => chain z T n + T (n + 1)

theorem chain_eq {M : Type*} [AddCommMonoid M] (z : M) (T : ℕ → M) (n : ℕ) :
    chain z T n = z + ∑ t ∈ Finset.range (n + 1), T t := by
  induction n with
  | zero => simp [chain]
  | succ n ih => rw [chain, ih, Finset.sum_range_succ _ (n + 1), add_assoc]

theorem chain_last {M : Type*} [AddCommMonoid M] (z : M) (T : ℕ → M) :
    chain z T 255 = z + ∑ t : Fin 256, T t.val := by
  rw [chain_eq, Fin.sum_univ_eq_sum_range]

/-! ## The constants -/

theorem ofBits_256 : Ideal.ofBits .f32 0x43800000#32 = ((256 : ℝ) : EReal) := by
  simp [Ideal.ofBits, Ideal.ieee, -EReal.coe_mul]; norm_num

theorem ofBits_inv256 : Ideal.ofBits .f32 0x3B800000#32 = ((1 / 256 : ℝ) : EReal) := by
  simp [Ideal.ofBits, Ideal.ieee, -EReal.coe_mul]; norm_num

/-- Dividing by 256 is multiplying by the dyadic 1/256, at the infinities too. -/
theorem div_256 (y : EReal) : Ideal.div y (Ideal.ofBits .f32 0x43800000#32) = y * Ideal.ofBits .f32 0x3B800000#32 := by
  rw [ofBits_256, Ideal.div_coe (by norm_num), ofBits_inv256]

/-- A one-bit word widened to 32 bits and read signed is the bit read unsigned. -/
theorem toInt_setWidth_bit (b : BitVec 1) : ((b.setWidth 32).toInt : ℝ) = ((b.toNat : ℕ) : ℝ) := by
  have h : ∀ b : BitVec 1, (b.setWidth 32).toInt = (b.toNat : ℤ) := by decide
  rw [h b]; simp

end Cert.PairLoss

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KTile.lean ====
/-
  One grid point's tiles and steps as extended reals, entry by entry.

  With the rows of tile I in `a` and the rows of tile J in `b`, the distance tile's entry (r, c) is
  ((Σₖ a(r,k)² + Σₖ b(c,k)²) − 2·Σₖ a(r,k)·b(c,k))·(1/256): the row sums of squares, one made a column and one a row,
  the matrix product of `a` with `b` transposed (a change of float format is the identity over the reals), the
  scale.  The agreement tile's entry (r, c) is 1 or 0 as the two labels are equal or not.  A step adds to the
  running sum the sum over the tile's rows of the sums along the rows.
-/
import proofs.«125821_j61418032333461_1_alg».proof.Proof.KStep
import proofs.«125821_j61418032333461_1_alg».proof.Proof.PairSpec
import proofs.«125821_j61418032333461_1_alg».proof.Proof.LibPlainDot
import Idealize.ShloMosaic.Lib.ValueLayout
import Idealize.ShloMosaic.Lib.ValueIdx
import Idealize.ShloMosaic.PureOps.Ideal.Laws

noncomputable section

namespace Cert.KernelIdeal.PairValue

open Cert.KernelIdeal Cert.KernelIdeal.Gen Cert.PairLoss
open Idealize.ShloMosaic Idealize.ShloMosaic.ValueIdx Idealize.ShloMosaic.PlainDot
open scoped BigOperators

/-- A sum along the rows of an f32 matrix from the zero word, at row p. -/
theorem rowSum0 {R C : Nat} (src : FVec Ideal (⟨2, ![R, C]⟩ : Shape) .f32)
    (h : Shape.Reduces (⟨2, ![R, C]⟩ : Shape) [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, (src (ix2 p k) : EReal) :=
  rowSum_apply src 0x00000000#32 h hφ hacc p

/-- The distance tile at (r, c), from the two row blocks. -/
theorem pay5_apply (a b : Vec Ideal S512x256 .f32) (r c : Fin 512) :
    k0_pay5 (F := Ideal) a b (ix2 r c)
      = ((∑ k : Fin 256, a (ix2 r k) * a (ix2 r k)) + (∑ k : Fin 256, b (ix2 c k) * b (ix2 c k))
          - Ideal.ofBits .f32 0x40000000#32 * ∑ k : Fin 256, a (ix2 r k) * b (ix2 c k))
        * Ideal.ofBits .f32 0x3B800000#32 := by
  unfold k0_pay5
  dsimp only
  rw [mulf_apply, subf_apply, addf_apply, mulf_apply, broadcast_apply, broadcast_apply]
  rw [broadcastTo_a1_ab_apply, shapeCast_a_a1_apply, rowSum0]
  rw [broadcastTo_1b_ab_apply, transpose_ix2_apply, shapeCast_a_a1_apply, rowSum0]
  simp only [matmul]
  rw [matmul_zero_apply _ rfl rfl rfl rfl rfl rfl]
  have ht : ∀ k : Fin 256, ((transpose S256x512 [1, 0] (truncf (F := Ideal) .bf16 b bitsLt_bf16_f32)
      transposes_S512x256_p1_0_S256x512) (ix2 k c) : EReal) = (b (ix2 c k) : EReal) := by
    intro k
    rw [transpose_ix2_apply]
    rfl
  simp only [mulf_apply, truncf_apply, ht]
  rfl

/-- The agreement tile at (r, c), from the labels of tile I as a column and of tile J as a row. -/
theorem pay6_apply (u : Vec Ideal S512x1 .i32) (w : Vec Ideal S1x512 .i32) (r c : Fin 512) :
    k0_pay6 (F := Ideal) u w (ix2 r c)
      = (((IntOp.cmpi .eq (u (ix2 r (0 : Fin 1))) (w (ix2 (0 : Fin 1) c))).toNat : ℝ) : EReal) := by
  unfold k0_pay6
  rw [sitofp_apply, extui_apply]
  show FloatOps.sitofp (F := Ideal) .f32 ((IntOp.cmpi .eq _ _).setWidth 32) = _
  rw [broadcastTo_a1_ab_apply, broadcastTo_1b_ab_apply, shapeCast_self, shapeCast_self]
  show (((BitVec.setWidth 32 (IntOp.cmpi .eq (u (ix2 r (0 : Fin 1))) (w (ix2 (0 : Fin 1) c)))).toInt : ℝ) : EReal) = _
  rw [toInt_setWidth_bit]

/-- The one index of a [1, 1] array. -/
theorem idx00 (h : ∀ a, (![0, 0] : Fin 2 → Nat) a < S1x1.size a) :
    (fun a => (⟨(![0, 0] : Fin 2 → Nat) a, h a⟩ : Fin (S1x1.size a))) = ix2 (0 : Fin 1) (0 : Fin 1) :=
  funext fun a => Fin.ext (by match a with | ⟨0, _⟩ => rfl | ⟨1, _⟩ => rfl)

/-- A 512 × 512 tile summed along its rows, the row sums made a row and summed: the sum over all its entries. -/
theorem tileSum_apply (v : FVec Ideal S512x512 .f32) :
    extractAt ![0, 0]
        (shapeCast S1x1
          (multiReduction .add [1] S1
            (shapeCast S1x512 (multiReduction .add [1] S512 v 0x00000000#32 reduces_S512x512_S512 (.inl rfl) rfl)
              shapeCasts_S512_S1x512)
            0x00000000#32 reduces_S1x512_S1 (.inl rfl) rfl)
          shapeCasts_S1_S1x1) inpos_S1x1_p0_0
      = ∑ r : Fin 512, ∑ c : Fin 512, (v (ix2 r c) : EReal) := by
  unfold extractAt
  rw [idx00, shapeCast_a_a1_apply, rowSum0]
  refine Finset.sum_congr rfl fun r _ => ?_
  rw [shapeCast_a_1a_apply, rowSum0]

/-- A step of the first running sum adds the tile's sum of agreement · distance. -/
theorem pay1_apply (d s : FVec Ideal S512x512 .f32) (acc : Vec Ideal S1x1 .f32) :
    k0_pay1 (F := Ideal) d s acc (ix2 (0 : Fin 1) (0 : Fin 1))
      = acc (ix2 (0 : Fin 1) (0 : Fin 1)) + ∑ r : Fin 512, ∑ c : Fin 512, s (ix2 r c) * d (ix2 r c) := by
  unfold k0_pay1
  dsimp only
  rw [shapeCast_self, addf_apply, broadcast_apply, tileSum_apply]
  rfl

/-- A step of the second running sum adds the tile's sum of max 0 ((1 − agreement)·(1 − distance)). -/
theorem pay2_apply (d s : FVec Ideal S512x512 .f32) (acc : Vec Ideal S1x1 .f32) :
    k0_pay2 (F := Ideal) d s acc (ix2 (0 : Fin 1) (0 : Fin 1))
      = acc (ix2 (0 : Fin 1) (0 : Fin 1))
        + ∑ r : Fin 512, ∑ c : Fin 512,
            max (Ideal.ofBits .f32 0x00000000#32)
              ((Ideal.ofBits .f32 0x3F800000#32 - s (ix2 r c)) * (Ideal.ofBits .f32 0x3F800000#32 - d (ix2 r c))) := by
  unfold k0_pay2
  dsimp only
  rw [shapeCast_self, addf_apply, broadcast_apply, tileSum_apply]
  rfl

/-! ## The tiles' row blocks, read off the whole arrays -/

/-- A unit-stride load of an [s0, s1] block at offset `off` of a matrix reads, at (p, q), the matrix at
    (off 0 + p, off 1 + q). -/
theorem ld_block {Val : EltTy → Type} {e : EltTy} {n0 n1 s0 s1 : Nat} (Y : (⟨2, ![n0, n1]⟩ : Shape).Idx → Val e) (off : Fin 2 → Nat)
    (inb : ∀ a, off a + (![s0, s1] : Fin 2 → Nat) a ≤ (⟨2, ![n0, n1]⟩ : Shape).size a)
    (p : Fin s0) (q : Fin s1) (P : Fin n0) (Q : Fin n1) (hP : P.val = off 0 + p.val) (hQ : Q.val = off 1 + q.val) :
    View.ld Y (Rect.unit off ![s0, s1] inb) (ix2 p q) = Y (ix2 P Q) := by
  dsimp only [View.ld]
  refine congrArg Y (funext fun a => Fin.ext ?_)
  match a with
  | ⟨0, _⟩ => show off 0 + 1 * p.val = P.val; omega
  | ⟨1, _⟩ => show off 1 + 1 * q.val = Q.val; omega

/-- Where a grid point's four loads start: the rows of tile I and of tile J. -/
structure AtTile (i : grid0.Coords) (I J : Fin 16) : Prop where
  h10 : k0_off1 i 0 = I.val * 512
  h11 : k0_off1 i 1 = 0
  h20 : k0_off2 i 0 = J.val * 512
  h21 : k0_off2 i 1 = 0
  h30 : k0_off3 i 0 = I.val * 512
  h31 : k0_off3 i 1 = 0
  h40 : k0_off4 i 0 = 0
  h41 : k0_off4 i 1 = J.val * 512

section
variable {i : grid0.Coords} {I J : Fin 16}
variable (X : Vec Ideal S8192x256 .f32) (x1 : Vec Ideal S8192x1 .i32) (x2 : Vec Ideal S1x8192 .i32)
variable (L : SL.Idx → BitVec 32)

/-- The distance tile's entry (r, c) is the distance of row r of tile I and row c of tile J. -/
theorem distTile_apply (hT : AtTile i I J) (r c : Fin 512) : distTile i X (ix2 r c) = dist X (row I r) (row J c) := by
  unfold distTile
  rw [pay5_apply]
  have ha : ∀ k : Fin 256, View.ld X (Rect.unit (k0_off1 i) S512x256.size (k0_off1_inb i)) (ix2 r k) = X (ix2 (row I r) k) :=
    fun k => ld_block X (k0_off1 i) (k0_off1_inb i) r k (row I r) k (by rw [hT.h10, row_val]) (by rw [hT.h11, Nat.zero_add])
  have hb : ∀ k : Fin 256, View.ld X (Rect.unit (k0_off2 i) S512x256.size (k0_off2_inb i)) (ix2 c k) = X (ix2 (row J c) k) :=
    fun k => ld_block X (k0_off2 i) (k0_off2_inb i) c k (row J c) k (by rw [hT.h20, row_val]) (by rw [hT.h21, Nat.zero_add])
  simp only [ha, hb]
  rfl

/-- The agreement tile's entry (r, c) compares the labels of those two rows. -/
theorem sameTile_apply (hT : AtTile i I J) (h1 : ∀ a : Fin 8192, x1 (ix2 a (0 : Fin 1)) = L (ix1 a))
    (h2 : ∀ a : Fin 8192, x2 (ix2 (0 : Fin 1) a) = L (ix1 a)) (r c : Fin 512) :
    sameTile i x1 x2 (ix2 r c) = same L (row I r) (row J c) := by
  unfold sameTile
  rw [pay6_apply]
  have hu : View.ld x1 (Rect.unit (k0_off3 i) S512x1.size (k0_off3_inb i)) (ix2 r (0 : Fin 1)) = x1 (ix2 (row I r) (0 : Fin 1)) :=
    ld_block x1 (k0_off3 i) (k0_off3_inb i) r 0 (row I r) 0 (by rw [hT.h30, row_val]) (by rw [hT.h31]; rfl)
  have hw : View.ld x2 (Rect.unit (k0_off4 i) S1x512.size (k0_off4_inb i)) (ix2 (0 : Fin 1) c) = x2 (ix2 (0 : Fin 1) (row J c)) :=
    ld_block x2 (k0_off4 i) (k0_off4_inb i) 0 c 0 (row J c) (by rw [hT.h40]; rfl) (by rw [hT.h41, row_val])
  rw [hu, hw, h1, h2]
  rfl

/-- One step of the first running sum adds tile (I, J)'s share of Σ same · dist. -/
theorem stepSame_apply (hT : AtTile i I J) (h1 : ∀ a : Fin 8192, x1 (ix2 a (0 : Fin 1)) = L (ix1 a))
    (h2 : ∀ a : Fin 8192, x2 (ix2 (0 : Fin 1) a) = L (ix1 a)) (acc : Vec Ideal S1x1 .f32) :
    stepSame i X x1 x2 acc (ix2 (0 : Fin 1) (0 : Fin 1)) = acc (ix2 (0 : Fin 1) (0 : Fin 1)) + tileSame X L I J := by
  unfold stepSame
  rw [pay1_apply]
  refine congrArg (_ + ·) (Finset.sum_congr rfl fun r _ => Finset.sum_congr rfl fun c _ => ?_)
  rw [distTile_apply X hT, sameTile_apply x1 x2 L hT h1 h2]
  rfl

/-- One step of the second running sum adds tile (I, J)'s share of Σ max 0 ((1 − same)·(1 − dist)). -/
theorem stepDiff_apply (hT : AtTile i I J) (h1 : ∀ a : Fin 8192, x1 (ix2 a (0 : Fin 1)) = L (ix1 a))
    (h2 : ∀ a : Fin 8192, x2 (ix2 (0 : Fin 1) a) = L (ix1 a)) (acc : Vec Ideal S1x1 .f32) :
    stepDiff i X x1 x2 acc (ix2 (0 : Fin 1) (0 : Fin 1)) = acc (ix2 (0 : Fin 1) (0 : Fin 1)) + tileDiff X L I J := by
  unfold stepDiff
  rw [pay2_apply]
  refine congrArg (_ + ·) (Finset.sum_congr rfl fun r _ => Finset.sum_congr rfl fun c _ => ?_)
  rw [distTile_apply X hT, sameTile_apply x1 x2 L hT h1 h2]
  rfl

end

end Cert.KernelIdeal.PairValue

end
-- ==== Proof.KChain.lean ====
/-
  The two running sums across the grid, as a recursion on the grid point.

  After the first point each running sum is one step from zero; after every later point it is one step from what
  the point before left; and at the last point each output block receives the running sum as it then stands.
-/
import proofs.«125821_j61418032333461_1_alg».proof.Proof.KStep

noncomputable section

namespace Cert.KernelIdeal.PairValue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The three input blocks at a point, at their literal types. -/
abbrev xblk (c : Dev nD) (t : Fin cfg0.N) : Vec F S8192x256 .f32 := iblk m c 0 t
abbrev ublk (c : Dev nD) (t : Fin cfg0.N) : Vec F S8192x1 .i32 := iblk m c 1 t
abbrev wblk (c : Dev nD) (t : Fin cfg0.N) : Vec F S1x8192 .i32 := iblk m c 2 t

/-- The running sums after point `n`. -/
abbrev accS (c : Dev nD) (n : ℕ) (h : n < cfg0.N) : Vec F S1x1 .f32 := (outsAt0 m c n h).2.2.1
abbrev accD (c : Dev nD) (n : ℕ) (h : n < cfg0.N) : Vec F S1x1 .f32 := (outsAt0 m c n h).2.2.2

theorem gridN : cfg0.N = 256 := N_0

/-- After the first point: one step from zero. -/
theorem accS_zero (c : Dev nD) (h : 0 < cfg0.N) :
    accS m c 0 h = stepSame (grid0.coords ⟨0, h⟩) (xblk m c ⟨0, h⟩) (ublk m c ⟨0, h⟩) (wblk m c ⟨0, h⟩) k0_pay3 := by
  have hA := outsAt0_A m c ⟨0, h⟩ rfl (by dsimp only; omega)
  show (outsAt0 m c (⟨0, h⟩ : Fin cfg0.N).val (⟨0, h⟩ : Fin cfg0.N).isLt).2.2.1 = _
  rw [hA]
  dsimp only
  exact soutA0 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) (iblk m c 0 ⟨0, h⟩) (iblk m c 1 ⟨0, h⟩) (iblk m c 2 ⟨0, h⟩) _ _

theorem accD_zero (c : Dev nD) (h : 0 < cfg0.N) :
    accD m c 0 h = stepDiff (grid0.coords ⟨0, h⟩) (xblk m c ⟨0, h⟩) (ublk m c ⟨0, h⟩) (wblk m c ⟨0, h⟩) k0_pay4 := by
  have hA := outsAt0_A m c ⟨0, h⟩ rfl (by dsimp only; omega)
  show (outsAt0 m c (⟨0, h⟩ : Fin cfg0.N).val (⟨0, h⟩ : Fin cfg0.N).isLt).2.2.2 = _
  rw [hA]
  dsimp only
  exact soutA1 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) (iblk m c 0 ⟨0, h⟩) (iblk m c 1 ⟨0, h⟩) (iblk m c 2 ⟨0, h⟩) _ _

/-- After a later point: one step from what the point before left. -/
theorem accS_succ (c : Dev nD) (n : ℕ) (h : n + 1 < cfg0.N) :
    accS m c (n + 1) h = stepSame (grid0.coords ⟨n + 1, h⟩) (xblk m c ⟨n + 1, h⟩) (ublk m c ⟨n + 1, h⟩) (wblk m c ⟨n + 1, h⟩)
      (accS m c n (Nat.lt_of_succ_lt h)) := by
  have hN : n + 1 < 256 := lt_of_lt_of_eq h gridN
  have h0 : ¬(⟨n + 1, h⟩ : Fin cfg0.N).val % 256 = 0 := by dsimp only; omega
  show (outsAt0 m c (⟨n + 1, h⟩ : Fin cfg0.N).val (⟨n + 1, h⟩ : Fin cfg0.N).isLt).2.2.1 = _
  by_cases h1 : (⟨n + 1, h⟩ : Fin cfg0.N).val % 256 = 255
  · rw [outsAt0_C m c ⟨n + 1, h⟩ h0 h1]
    dsimp only
    exact soutC0 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (iblk m c 0 ⟨n + 1, h⟩) (iblk m c 1 ⟨n + 1, h⟩) (iblk m c 2 ⟨n + 1, h⟩) _ _ _ _
  · rw [outsAt0_B m c ⟨n + 1, h⟩ h0 h1]
    dsimp only
    exact soutB0 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (iblk m c 0 ⟨n + 1, h⟩) (iblk m c 1 ⟨n + 1, h⟩) (iblk m c 2 ⟨n + 1, h⟩) _ _ _ _

theorem accD_succ (c : Dev nD) (n : ℕ) (h : n + 1 < cfg0.N) :
    accD m c (n + 1) h = stepDiff (grid0.coords ⟨n + 1, h⟩) (xblk m c ⟨n + 1, h⟩) (ublk m c ⟨n + 1, h⟩) (wblk m c ⟨n + 1, h⟩)
      (accD m c n (Nat.lt_of_succ_lt h)) := by
  have hN : n + 1 < 256 := lt_of_lt_of_eq h gridN
  have h0 : ¬(⟨n + 1, h⟩ : Fin cfg0.N).val % 256 = 0 := by dsimp only; omega
  show (outsAt0 m c (⟨n + 1, h⟩ : Fin cfg0.N).val (⟨n + 1, h⟩ : Fin cfg0.N).isLt).2.2.2 = _
  by_cases h1 : (⟨n + 1, h⟩ : Fin cfg0.N).val % 256 = 255
  · rw [outsAt0_C m c ⟨n + 1, h⟩ h0 h1]
    dsimp only
    exact soutC1 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (iblk m c 0 ⟨n + 1, h⟩) (iblk m c 1 ⟨n + 1, h⟩) (iblk m c 2 ⟨n + 1, h⟩) _ _ _ _
  · rw [outsAt0_B m c ⟨n + 1, h⟩ h0 h1]
    dsimp only
    exact soutB1 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (iblk m c 0 ⟨n + 1, h⟩) (iblk m c 1 ⟨n + 1, h⟩) (iblk m c 2 ⟨n + 1, h⟩) _ _ _ _

/-- At a point where the outputs are stored (the last), the first output block receives the first running sum, -/
theorem out3_at (c : Dev nD) (n : ℕ) (h : n < cfg0.N) (h0 : ¬n % 256 = 0) (h1 : n % 256 = 255) :
    (outsAt0 m c n h).1 = accS m c n h := by
  show (outsAt0 m c (⟨n, h⟩ : Fin cfg0.N).val (⟨n, h⟩ : Fin cfg0.N).isLt).1
    = (outsAt0 m c (⟨n, h⟩ : Fin cfg0.N).val (⟨n, h⟩ : Fin cfg0.N).isLt).2.2.1
  rw [outsAt0_C m c ⟨n, h⟩ h0 h1]
  dsimp only
  exact (outC3 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (iblk m c 0 ⟨n, h⟩) (iblk m c 1 ⟨n, h⟩) (iblk m c 2 ⟨n, h⟩) _ _ _ _).trans
    (soutC0 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (iblk m c 0 ⟨n, h⟩) (iblk m c 1 ⟨n, h⟩) (iblk m c 2 ⟨n, h⟩) _ _ _ _).symm

/-- and the second output block the second. -/
theorem out4_at (c : Dev nD) (n : ℕ) (h : n < cfg0.N) (h0 : ¬n % 256 = 0) (h1 : n % 256 = 255) :
    (outsAt0 m c n h).2.1 = accD m c n h := by
  show (outsAt0 m c (⟨n, h⟩ : Fin cfg0.N).val (⟨n, h⟩ : Fin cfg0.N).isLt).2.1
    = (outsAt0 m c (⟨n, h⟩ : Fin cfg0.N).val (⟨n, h⟩ : Fin cfg0.N).isLt).2.2.2
  rw [outsAt0_C m c ⟨n, h⟩ h0 h1]
  dsimp only
  exact (outC4 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (iblk m c 0 ⟨n, h⟩) (iblk m c 1 ⟨n, h⟩) (iblk m c 2 ⟨n, h⟩) _ _ _ _).trans
    (soutC1 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (iblk m c 0 ⟨n, h⟩) (iblk m c 1 ⟨n, h⟩) (iblk m c 2 ⟨n, h⟩) _ _ _ _).symm

end Cert.KernelIdeal.PairValue

end
-- ==== Proof.KInputs.lean ====
import proofs.«125821_j61418032333461_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

/-
  What the kernel's three input windows hold, and where its loads start.

  Every window's block index is (0, 0) at every grid point and its block has the array's own extents, so the block
  a window reads is the whole array.  The first window's array is the sample matrix as launched.  The second and
  third windows' arrays are the label vector reshaped to a column [8192, 1] and to a row [1, 8192]; a reshape keeps
  the row-major position, so the column at (i, 0) and the row at (0, j) are the label vector at i and at j.  At grid
  point t = 16·I + J the kernel's loads start at row 512·I (the left operand and the column of labels) and at row
  or column 512·J (the right operand and the row of labels).
-/

noncomputable section

namespace Cert.KernelIdeal.PairValue

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F] (m : (ℓ : Loc nD τ sig) → Buf (Elt F) ℓ)

/-! ## The arrays the region finds -/

/-- The column of labels the region finds is the label vector reshaped to [8192, 1]. -/
theorem V_main_v0 (c : Dev nD) :
    (V m c main_v0 : S8192x1.Idx → BitVec 32)
      = shapeCast S8192x1 (m ((c : Thread nD τ).loc main_arg3)) shapeCasts_S8192_S8192x1 := by
  show StableHlo.after hostOps0 (fun b => m (c, b)) (Proc.devRef .tc main_v0) = _
  after_results
  rfl

/-- The row of labels the region finds is the label vector reshaped to [1, 8192]. -/
theorem V_main_v1 (c : Dev nD) :
    (V m c main_v1 : S1x8192.Idx → BitVec 32)
      = shapeCast S1x8192 (m ((c : Thread nD τ).loc main_arg3)) shapeCasts_S8192_S1x8192 := by
  show StableHlo.after hostOps0 (fun b => m (c, b)) (Proc.devRef .tc main_v1) = _
  after_results
  rfl

/-! ## The blocks: each is its whole array -/

/-- The first window's block, at every point, is the sample matrix as launched. -/
theorem iblk0_eq (c : Dev nD) (t : Fin cfg0.N) :
    (iblk m c 0 t : Vec F S8192x256 .f32) = m ((c : Thread nD τ).loc main_arg2) := by
  have hz : (fun a => win0_0.index t a * main_arg2.ty.shape.size a) = fun _ => 0 :=
    funext fun a => by
      have h : win0_0.index t a = 0 := by fin_cases a <;> rfl
      rw [h, Nat.zero_mul]
  refine (Memref.read_access_unit_zero (Elt F) main_arg2 hz (fun a => by rw [congrFun hz a]; simp) _).trans ?_
  exact V_main_arg2 m c

/-- The second window's block, at every point, is the column of labels. -/
theorem iblk1_eq (c : Dev nD) (t : Fin cfg0.N) :
    (iblk m c 1 t : Vec F S8192x1 .i32) = V m c main_v0 := by
  have hz : (fun a => win0_1.index t a * main_v0.ty.shape.size a) = fun _ => 0 :=
    funext fun a => by
      have h : win0_1.index t a = 0 := by fin_cases a <;> rfl
      rw [h, Nat.zero_mul]
  exact Memref.read_access_unit_zero (Elt F) main_v0 hz (fun a => by rw [congrFun hz a]; simp) _

/-- The third window's block, at every point, is the row of labels. -/
theorem iblk2_eq (c : Dev nD) (t : Fin cfg0.N) :
    (iblk m c 2 t : Vec F S1x8192 .i32) = V m c main_v1 := by
  have hz : (fun a => win0_2.index t a * main_v1.ty.shape.size a) = fun _ => 0 :=
    funext fun a => by
      have h : win0_2.index t a = 0 := by fin_cases a <;> rfl
      rw [h, Nat.zero_mul]
  exact Memref.read_access_unit_zero (Elt F) main_v1 hz (fun a => by rw [congrFun hz a]; simp) _

/-- The column of labels at (i, 0) is the label vector at i: both sit at row-major position i. -/
theorem iblk1_apply (c : Dev nD) (t : Fin cfg0.N) (i : Fin 8192) :
    (iblk m c 1 t : Vec F S8192x1 .i32) (ix2 i (0 : Fin 1)) = m ((c : Thread nD τ).loc main_arg3) (ix1 i) := by
  rw [iblk1_eq, V_main_v0]
  refine shapeCast_apply _ shapeCasts_S8192_S8192x1 (ix2 i (0 : Fin 1)) (ix1 i) ?_
  rw [Shape.rowMajor_val_one, Shape.rowMajor_val_two]
  show i.val = i.val * 1 + 0
  omega

/-- The row of labels at (0, j) is the label vector at j: both sit at row-major position j. -/
theorem iblk2_apply (c : Dev nD) (t : Fin cfg0.N) (j : Fin 8192) :
    (iblk m c 2 t : Vec F S1x8192 .i32) (ix2 (0 : Fin 1) j) = m ((c : Thread nD τ).loc main_arg3) (ix1 j) := by
  rw [iblk2_eq, V_main_v1]
  refine shapeCast_apply _ shapeCasts_S8192_S1x8192 (ix2 (0 : Fin 1) j) (ix1 j) ?_
  rw [Shape.rowMajor_val_one, Shape.rowMajor_val_two]
  show j.val = 0 * 8192 + j.val
  omega

/-! ## Where the loads start -/

/-- At grid point t = 16·I + J the four loads start at rows 512·I, 512·J, 512·I and at column 512·J. -/
theorem off_facts (t : Fin cfg0.N) :
    k0_off1 (grid0.coords t) 0 = (t.val / 16) * 512 ∧ k0_off1 (grid0.coords t) 1 = 0
      ∧ k0_off2 (grid0.coords t) 0 = (t.val % 16) * 512 ∧ k0_off2 (grid0.coords t) 1 = 0
      ∧ k0_off3 (grid0.coords t) 0 = (t.val / 16) * 512 ∧ k0_off3 (grid0.coords t) 1 = 0
      ∧ k0_off4 (grid0.coords t) 0 = 0 ∧ k0_off4 (grid0.coords t) 1 = (t.val % 16) * 512 :=
  (by decide +kernel : ∀ t : Fin grid0.N,
    k0_off1 (grid0.coords t) 0 = (t.val / 16) * 512 ∧ k0_off1 (grid0.coords t) 1 = 0
      ∧ k0_off2 (grid0.coords t) 0 = (t.val % 16) * 512 ∧ k0_off2 (grid0.coords t) 1 = 0
      ∧ k0_off3 (grid0.coords t) 0 = (t.val / 16) * 512 ∧ k0_off3 (grid0.coords t) 1 = 0
      ∧ k0_off4 (grid0.coords t) 0 = 0 ∧ k0_off4 (grid0.coords t) 1 = (t.val % 16) * 512) t

end Cert.KernelIdeal.PairValue

end
-- ==== Proof.KFinal.lean ====
import proofs.«125821_j61418032333461_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

/-
  What the kernel's two result arrays end holding.

  Each result array has one element and its window's one block is the whole array.  The pipeline writes a result
  window's block back at the last grid point, 255, and nowhere else; what it writes is what the body left in the
  window's buffer there.  That one write-back covers the array, so the array ends holding it.
-/

noncomputable section

namespace Cert.KernelIdeal.PairValue

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F] (m : (ℓ : Loc nD τ sig) → Buf (Elt F) ℓ)

/-- The last grid point is a point of the grid. -/
theorem lastLt : 255 < cfg0.N := by rw [show cfg0.N = 256 from N_0]; decide

/-- The last grid point. -/
abbrev tLast : Fin cfg0.N := ⟨255, lastLt⟩

/-- Block (0, 0) of a one-element array is the array: what a write-back of the first result's window moves, read
    as a block of contents G, is G. -/
theorem cut3_eq (t : Fin cfg0.N) (G : Vec F S1x1 .f32) :
    (cfg0.win 3).cut (grid0.coords t) G = ((cfg0.win 3).blk t).view.read (Elt F) G := by
  have hz : (fun a => win0_3.index t a * main_v2_0.ty.shape.size a) = fun _ => 0 :=
    funext fun a => by
      have h : win0_3.index t a = 0 := by fin_cases a <;> rfl
      rw [h, Nat.zero_mul]
  exact (Memref.read_access_unit_zero (Elt F) main_v2_0 hz (fun a => by rw [congrFun hz a]; simp) G).symm

/-- The same for the second result's window. -/
theorem cut4_eq (t : Fin cfg0.N) (G : Vec F S1x1 .f32) :
    (cfg0.win 4).cut (grid0.coords t) G = ((cfg0.win 4).blk t).view.read (Elt F) G := by
  have hz : (fun a => win0_4.index t a * main_v2_1.ty.shape.size a) = fun _ => 0 :=
    funext fun a => by
      have h : win0_4.index t a = 0 := by fin_cases a <;> rfl
      rw [h, Nat.zero_mul]
  exact (Memref.read_access_unit_zero (Elt F) main_v2_1 hz (fun a => by rw [congrFun hz a]; simp) G).symm

/-- The one write-back of the first result is at the last point t0, and writes what the body left there. -/
theorem flushed3_at (c : Dev nD) (t0 : Fin cfg0.N) (h0 : t0.val % 256 = 255) (t : Fin cfg0.N)
    (hf : (cfg0.win 3).flush t = true) :
    (dats m 0 c).flushed 3 t = ((cfg0.win 3).blk t).view.read (Elt F) ((outsAt0 m c t0.val t0.isLt).1) := by
  have hN : cfg0.N = 256 := N_0
  have ht : t = t0 := Fin.ext (by have := (flush0_3 t).mp hf; have := t.isLt; have := t0.isLt; omega)
  subst ht
  show (cfg0.win 3).cut (grid0.coords t) ((dats m 0 c).after 3 t) = _
  rw [after0_3]
  exact cut3_eq t _

/-- The same for the second result. -/
theorem flushed4_at (c : Dev nD) (t0 : Fin cfg0.N) (h0 : t0.val % 256 = 255) (t : Fin cfg0.N)
    (hf : (cfg0.win 4).flush t = true) :
    (dats m 0 c).flushed 4 t = ((cfg0.win 4).blk t).view.read (Elt F) ((outsAt0 m c t0.val t0.isLt).2.1) := by
  have hN : cfg0.N = 256 := N_0
  have ht : t = t0 := Fin.ext (by have := (flush0_4 t).mp hf; have := t.isLt; have := t0.isLt; omega)
  subst ht
  show (cfg0.win 4).cut (grid0.coords t) ((dats m 0 c).after 4 t) = _
  rw [after0_4]
  exact cut4_eq t _

/-- The first result array ends holding what the body left in its window's buffer at the last point t0: that
    point's block covers the array. -/
theorem final3_at (c : Dev nD) (t0 : Fin cfg0.N) (h0 : t0.val % 256 = 255) :
    (dats m 0 c).arrAt 3 cfg0.N = (outsAt0 m c t0.val t0.isLt).1 :=
  (dats m 0 c).arrAt_eq_of_cover 3 ((outsAt0 m c t0.val t0.isLt).1) (flushed3_at m c t0 h0) fun i =>
    ⟨t0, (flush0_3 t0).mpr h0, by
      show i ∈ ((View.whole main_v2_0).slice (win0_3.rect t0)).set
      rw [View.set_slice_whole, Rect.mem_set_unit]
      intro a
      have hi0 : (i 0 : Nat) < 1 := (i 0).isLt
      have hi1 : (i 1 : Nat) < 1 := (i 1).isLt
      match a with
      | ⟨0, _⟩ =>
        show win0_3.index t0 0 * win0_3.size 0 ≤ (i 0 : Nat)
          ∧ (i 0 : Nat) < win0_3.index t0 0 * win0_3.size 0 + win0_3.xsize (grid0.coords t0) 0
        rw [show win0_3.index t0 0 * win0_3.size 0 = 0 from rfl, show win0_3.xsize (grid0.coords t0) 0 = 1 from rfl]
        omega
      | ⟨1, _⟩ =>
        show win0_3.index t0 1 * win0_3.size 1 ≤ (i 1 : Nat)
          ∧ (i 1 : Nat) < win0_3.index t0 1 * win0_3.size 1 + win0_3.xsize (grid0.coords t0) 1
        rw [show win0_3.index t0 1 * win0_3.size 1 = 0 from rfl, show win0_3.xsize (grid0.coords t0) 1 = 1 from rfl]
        omega⟩

/-- The same for the second result array. -/
theorem final4_at (c : Dev nD) (t0 : Fin cfg0.N) (h0 : t0.val % 256 = 255) :
    (dats m 0 c).arrAt 4 cfg0.N = (outsAt0 m c t0.val t0.isLt).2.1 :=
  (dats m 0 c).arrAt_eq_of_cover 4 ((outsAt0 m c t0.val t0.isLt).2.1) (flushed4_at m c t0 h0) fun i =>
    ⟨t0, (flush0_4 t0).mpr h0, by
      show i ∈ ((View.whole main_v2_1).slice (win0_4.rect t0)).set
      rw [View.set_slice_whole, Rect.mem_set_unit]
      intro a
      have hi0 : (i 0 : Nat) < 1 := (i 0).isLt
      have hi1 : (i 1 : Nat) < 1 := (i 1).isLt
      match a with
      | ⟨0, _⟩ =>
        show win0_4.index t0 0 * win0_4.size 0 ≤ (i 0 : Nat)
          ∧ (i 0 : Nat) < win0_4.index t0 0 * win0_4.size 0 + win0_4.xsize (grid0.coords t0) 0
        rw [show win0_4.index t0 0 * win0_4.size 0 = 0 from rfl, show win0_4.xsize (grid0.coords t0) 0 = 1 from rfl]
        omega
      | ⟨1, _⟩ =>
        show win0_4.index t0 1 * win0_4.size 1 ≤ (i 1 : Nat)
          ∧ (i 1 : Nat) < win0_4.index t0 1 * win0_4.size 1 + win0_4.xsize (grid0.coords t0) 1
        rw [show win0_4.index t0 1 * win0_4.size 1 = 0 from rfl, show win0_4.xsize (grid0.coords t0) 1 = 1 from rfl]
        omega⟩

/-- What the body left after point n does not depend on how n is written. -/
theorem outs_congr (c : Dev nD) (n n' : ℕ) (h : n < cfg0.N) (h' : n' < cfg0.N) (e : n = n') :
    outsAt0 m c n h = outsAt0 m c n' h' := by
  subst e; rfl

/-- The first result array ends holding what the body left at point 255. -/
theorem final3 (c : Dev nD) : (dats m 0 c).arrAt 3 cfg0.N = (outsAt0 m c 255 lastLt).1 :=
  (final3_at m c tLast rfl).trans
    (congrArg (fun p => p.1) (outs_congr m c tLast.val 255 tLast.isLt lastLt rfl))

/-- The second result array ends holding what the body left at point 255. -/
theorem final4 (c : Dev nD) : (dats m 0 c).arrAt 4 cfg0.N = (outsAt0 m c 255 lastLt).2.1 :=
  (final4_at m c tLast rfl).trans
    (congrArg (fun p => p.2.1) (outs_congr m c tLast.val 255 tLast.isLt lastLt rfl))

end Cert.KernelIdeal.PairValue

end
-- ==== Proof.KRun.lean ====
/- The host lines that follow the kernel's one region. The region leaves two [1,1] f32 outputs; the host
   lines reshape each to a scalar, divide each by the literal 0x4C800000, multiply each by the literal
   0x41200000 and add the two products. This module names that function of the two outputs (`tailOf`) and
   shows that every run of @main ends with it in the result buffer, the four arguments as launched. -/
import proofs.«125821_j61418032333461_1_alg».proof.Proof.Gen.KernelIdeal.Frame
import Idealize.ShloMosaic.Lib.Pipeline.Value
import Idealize.ShloMosaic.Lib.StableHlo.Run

noncomputable section

namespace Cert.KernelIdeal.PairValue

open Cert.KernelIdeal Cert.KernelIdeal.Gen Idealize.ShloMosaic Idealize.ShloMosaic.TcCoe Idealize.SL.Sem
open Idealize.ShloMosaic.Pipeline (Dat)
open Idealize.ShloMosaic.StableHlo

variable {F : FTy → Type} [FloatOps F] (m : (ℓ : Loc nD τ sig) → Buf (Elt F) ℓ) (ρ : Dev nD → PrngReg)

/-- the host lines after the region, as a function of the two [1,1] outputs -/
def tailOf (a b : Vec F S1x1 .f32) : Vec F S_ .f32 :=
  addf (mulf (constant S_ .f32 0x41200000#32) (Host.divf (shapeCast S_ a shapeCasts_S1x1_S_) (constant S_ .f32 0x4C800000#32)))
       (mulf (constant S_ .f32 0x41200000#32) (Host.divf (shapeCast S_ b shapeCasts_S1x1_S_) (constant S_ .f32 0x4C800000#32)))

/-- What the host lines leave in the result buffer: each of them writes its own result buffer only, so the
    result is their composition applied to the contents of the two output arrays at the region's exit, and
    those are the two windows' final arrays. -/
theorem tail_eq (A3 A4 : Dev nD → Vec F S1x1 .f32)
    (h3 : ∀ c, (dats m 0 c).arrAt 3 cfg0.N = A3 c) (h4 : ∀ c, (dats m 0 c).arrAt 4 cfg0.N = A4 c) (c : Dev nD) :
    Pipeline.afterTail₀ cfgs (dats m) 0 (V0 m) [hostOps1] c main_v9 = tailOf (A3 c) (A4 c) := by
  unfold Pipeline.afterTail₀
  show StableHlo.after hostOps1 _ (Proc.devRef .tc main_v9) = _
  after_results
  have e3 : Pipeline.withArrays (cfgs 0).spec c (V0 m c) (fun w => (dats m 0 c).arrAt w (cfgs 0).N) (Proc.devRef .tc main_v2_0) = A3 c :=
    (Pipeline.withArrays_arr spec0 launch0.win.arr_inj c _ _ 3).trans (h3 c)
  have e4 : Pipeline.withArrays (cfgs 0).spec c (V0 m c) (fun w => (dats m 0 c).arrAt w (cfgs 0).N) (Proc.devRef .tc main_v2_1) = A4 c :=
    (Pipeline.withArrays_arr spec0 launch0.win.arr_inj c _ _ 4).trans (h4 c)
  rw [e3, e4]
  rfl

/-- Every run of @main ends with the result buffer at `tailOf` of the two outputs' final arrays and with the
    four arguments as launched: the result buffer and the arguments no window stages are buffers the region
    bypasses, read after the host lines; the staged argument is an input window's array, which the region
    leaves as it found it. -/
theorem run_named_of (A3 A4 : Dev nD → Vec F S1x1 .f32)
    (h3 : ∀ c, (dats m 0 c).arrAt 3 cfg0.N = A3 c) (h4 : ∀ c, (dats m 0 c).arrAt 4 cfg0.N = A4 c) :
    θ_run defs (onTc (τ := τ) (main (F := F))) ⟨m, fun _ => 0, ρ⟩ (fun r => ∀ c : Dev nD,
      r.2.mem ((c.tc : Thread nD τ).loc main_v9) = tailOf (A3 c) (A4 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans (tail_eq m A3 A4 h3 h4 c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans ((((dats m) 0 c).arrAt_in 0 rfl _).trans ((A_eq m c 0).trans (V_main_arg2 m c))),
      ((h c).2 main_arg3 (Pipeline.mem_restRefs_of main_arg3 (by decide) (by decide))).trans (W_main_arg3 m (dats m) c)⟩)
    (run_main m ρ)

end Cert.KernelIdeal.PairValue

end
-- ==== Proof.KValue.lean ====
/-
  The kernel's result, over the extended reals, is the loss.

  At grid point t = 16·I + J the two running sums each take tile (I, J)'s share; started from zero and stepped over
  the 256 points they end at the sums over all pairs of tiles, which are the sums over all pairs of rows; the two
  output blocks receive them at the last point, and the host lines after the region form 10·(sum/8192²) of each and
  add.
-/
import proofs.«125821_j61418032333461_1_alg».proof.Proof.KTile
import proofs.«125821_j61418032333461_1_alg».proof.Proof.KChain
import proofs.«125821_j61418032333461_1_alg».proof.Proof.KInputs
import proofs.«125821_j61418032333461_1_alg».proof.Proof.KFinal
import proofs.«125821_j61418032333461_1_alg».proof.Proof.KRun

noncomputable section

namespace Cert.KernelIdeal.PairValue

open Cert.KernelIdeal Cert.KernelIdeal.Gen Cert.PairLoss
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The samples and the labels as launched. -/
abbrev Xof (c : Dev nD) : SX.Idx → EReal := m ((c : Thread nD τ).loc main_arg2)
abbrev Lof (c : Dev nD) : SL.Idx → BitVec 32 := m ((c : Thread nD τ).loc main_arg3)

/-- The tile pair grid point n visits. -/
def gI (n : ℕ) : Fin 16 := ⟨n / 16 % 16, Nat.mod_lt _ (by norm_num)⟩
def gJ (n : ℕ) : Fin 16 := ⟨n % 16, Nat.mod_lt _ (by norm_num)⟩

theorem atTile (t : Fin cfg0.N) : AtTile (grid0.coords t) (gI t.val) (gJ t.val) := by
  have hN : t.val < 256 := lt_of_lt_of_eq t.isLt gridN
  obtain ⟨a1, a2, a3, a4, a5, a6, a7, a8⟩ := off_facts t
  have e : (gI t.val).val = t.val / 16 := by show t.val / 16 % 16 = t.val / 16; omega
  exact ⟨by rw [a1, e], a2, a3, a4, by rw [a5, e], a6, a7, a8⟩

theorem xblk_eq (c : Dev nD) (t : Fin cfg0.N) : xblk m c t = Xof m c := iblk0_eq m c t
theorem ublk_apply (c : Dev nD) (t : Fin cfg0.N) (a : Fin 8192) : ublk m c t (ix2 a (0 : Fin 1)) = Lof m c (ix1 a) :=
  iblk1_apply m c t a
theorem wblk_apply (c : Dev nD) (t : Fin cfg0.N) (a : Fin 8192) : wblk m c t (ix2 (0 : Fin 1) a) = Lof m c (ix1 a) :=
  iblk2_apply m c t a

/-- The zero the running sums are reset to. -/
theorem pay3_apply : k0_pay3 (F := Ideal) (ix2 (0 : Fin 1) (0 : Fin 1)) = Ideal.ofBits .f32 0x00000000#32 := by
  unfold k0_pay3
  rw [shapeCast_self]
  rfl

theorem pay4_apply : k0_pay4 (F := Ideal) (ix2 (0 : Fin 1) (0 : Fin 1)) = Ideal.ofBits .f32 0x00000000#32 := by
  unfold k0_pay4
  rw [shapeCast_self]
  rfl

/-- Each point's share of the two sums. -/
def TS (c : Dev nD) (n : ℕ) : EReal := tileSame (Xof m c) (Lof m c) (gI n) (gJ n)
def TD (c : Dev nD) (n : ℕ) : EReal := tileDiff (Xof m c) (Lof m c) (gI n) (gJ n)

/-- The first running sum after point n is the chain of the shares so far. -/
theorem accS_eq (c : Dev nD) : ∀ (n : ℕ) (h : n < cfg0.N),
    accS m c n h (ix2 (0 : Fin 1) (0 : Fin 1)) = chain (Ideal.ofBits .f32 0x00000000#32) (TS m c) n
  | 0, h => by
    rw [accS_zero, stepSame_apply (xblk m c ⟨0, h⟩) (ublk m c ⟨0, h⟩) (wblk m c ⟨0, h⟩) (Lof m c) (atTile ⟨0, h⟩)
      (ublk_apply m c ⟨0, h⟩) (wblk_apply m c ⟨0, h⟩), pay3_apply, xblk_eq]
    rfl
  | n + 1, h => by
    rw [accS_succ, stepSame_apply (xblk m c ⟨n + 1, h⟩) (ublk m c ⟨n + 1, h⟩) (wblk m c ⟨n + 1, h⟩) (Lof m c) (atTile ⟨n + 1, h⟩)
      (ublk_apply m c ⟨n + 1, h⟩) (wblk_apply m c ⟨n + 1, h⟩), accS_eq c n, xblk_eq]
    rfl

theorem accD_eq (c : Dev nD) : ∀ (n : ℕ) (h : n < cfg0.N),
    accD m c n h (ix2 (0 : Fin 1) (0 : Fin 1)) = chain (Ideal.ofBits .f32 0x00000000#32) (TD m c) n
  | 0, h => by
    rw [accD_zero, stepDiff_apply (xblk m c ⟨0, h⟩) (ublk m c ⟨0, h⟩) (wblk m c ⟨0, h⟩) (Lof m c) (atTile ⟨0, h⟩)
      (ublk_apply m c ⟨0, h⟩) (wblk_apply m c ⟨0, h⟩), pay4_apply, xblk_eq]
    rfl
  | n + 1, h => by
    rw [accD_succ, stepDiff_apply (xblk m c ⟨n + 1, h⟩) (ublk m c ⟨n + 1, h⟩) (wblk m c ⟨n + 1, h⟩) (Lof m c) (atTile ⟨n + 1, h⟩)
      (ublk_apply m c ⟨n + 1, h⟩) (wblk_apply m c ⟨n + 1, h⟩), accD_eq c n, xblk_eq]
    rfl

/-- The shares of the 256 points are those of all pairs of tiles, so of all pairs of rows. -/
theorem sum_shares (f : Fin 8192 → Fin 8192 → EReal) :
    ∑ t : Fin 256, ∑ r : Fin 512, ∑ q : Fin 512, f (row (gI t.val) r) (row (gJ t.val) q)
      = ∑ i : Fin 8192, ∑ j : Fin 8192, f i j := by
  rw [← sum_pairs_tiled f, ← sum_grid (fun I J => ∑ r : Fin 512, ∑ q : Fin 512, f (row I r) (row J q))]
  refine Finset.sum_congr rfl fun t _ => ?_
  have e : gI t.val = ⟨t.val / 16, by have := t.isLt; omega⟩ := Fin.ext (by show t.val / 16 % 16 = t.val / 16; have := t.isLt; omega)
  rw [e]
  rfl

/-- After the last point, 255, the running sums are the two totals. -/
theorem accS_last (c : Dev nD) (n : ℕ) (h : n < cfg0.N) (hn : n = 255) :
    accS m c n h (ix2 (0 : Fin 1) (0 : Fin 1)) = ∑ i : Fin 8192, ∑ j : Fin 8192, fSame (Xof m c) (Lof m c) i j := by
  rw [accS_eq m c n h, hn, chain_last, Ideal.ofBits_zero_f32, zero_add]
  exact sum_shares (fSame (Xof m c) (Lof m c))

theorem accD_last (c : Dev nD) (n : ℕ) (h : n < cfg0.N) (hn : n = 255) :
    accD m c n h (ix2 (0 : Fin 1) (0 : Fin 1)) = ∑ i : Fin 8192, ∑ j : Fin 8192, fDiff (Xof m c) (Lof m c) i j := by
  rw [accD_eq m c n h, hn, chain_last, Ideal.ofBits_zero_f32, zero_add]
  exact sum_shares (fDiff (Xof m c) (Lof m c))

/-- A [1, 1] array made a scalar reads its one entry. -/
theorem scalar_of_1x1 (a : Vec Ideal S1x1 .f32) (i0 : S_.Idx) :
    shapeCast S_ a shapeCasts_S1x1_S_ i0 = a (ix2 (0 : Fin 1) (0 : Fin 1)) :=
  shapeCast_apply a shapeCasts_S1x1_S_ i0 (ix2 (0 : Fin 1) (0 : Fin 1)) (by
    have h1 := (S1x1.rowMajor (ix2 (0 : Fin 1) (0 : Fin 1))).isLt
    have h2 := (S_.rowMajor i0).isLt
    have e1 : S1x1.numel = 1 := by decide
    have e2 : S_.numel = 1 := by decide
    omega)

/-- The host lines after the region make, of two one-entry arrays, the loss of their entries. -/
theorem tail_value (a b : Vec Ideal S1x1 .f32) (sS sD : EReal) (ha : a (ix2 (0 : Fin 1) (0 : Fin 1)) = sS)
    (hb : b (ix2 (0 : Fin 1) (0 : Fin 1)) = sD) : tailOf a b = fun _ => lossOf sS sD := by
  funext i0
  show Ideal.ofBits .f32 0x41200000#32 * Ideal.div (shapeCast S_ a shapeCasts_S1x1_S_ i0) (Ideal.ofBits .f32 0x4C800000#32)
    + Ideal.ofBits .f32 0x41200000#32 * Ideal.div (shapeCast S_ b shapeCasts_S1x1_S_ i0) (Ideal.ofBits .f32 0x4C800000#32) = _
  rw [scalar_of_1x1, scalar_of_1x1, ha, hb]
  rfl

/-- The run with the last point a variable `t0` known to be point 255. -/
theorem run_at (t0 : Fin cfg0.N) (h0 : t0.val = 255) :
    θ_run defs (onTc (τ := τ) (main (F := Ideal))) ⟨m, fun _ => 0, ρ⟩ (fun r => ∀ c : Dev nD,
      r.2.mem ((c.tc : Thread nD τ).loc main_v9) = (fun _ => loss (Xof m c) (Lof m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans
      (tail_value (accS m c t0.val t0.isLt) (accD m c t0.val t0.isLt) _ _ (accS_last m c t0.val t0.isLt h0) (accD_last m c t0.val t0.isLt h0)),
      (h c).2⟩)
    (run_named_of m ρ (fun c => accS m c t0.val t0.isLt) (fun c => accD m c t0.val t0.isLt)
      (fun c => (final3_at m c t0 (by omega)).trans (out3_at m c t0.val t0.isLt (by omega) (by omega)))
      (fun c => (final4_at m c t0 (by omega)).trans (out4_at m c t0.val t0.isLt (by omega) (by omega))))

/-- Every weakly fair execution of the kernel program ends with its result at the loss and its arguments
    unchanged. -/
theorem run : θ_run defs (onTc (τ := τ) (main (F := Ideal))) ⟨m, fun _ => 0, ρ⟩ (fun r => ∀ c : Dev nD,
      r.2.mem ((c.tc : Thread nD τ).loc main_v9) = (fun _ => loss (Xof m c) (Lof m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_at m ρ ⟨255, lastLt⟩ rfl

end Cert.KernelIdeal.PairValue

end
-- ==== Proof.RefValue.lean ====
import proofs.«125821_j61418032333461_1_alg».proof.Proof.Gen.ReferenceIdeal.Run
import proofs.«125821_j61418032333461_1_alg».proof.Proof.Gen.ReferenceIdeal.Read
import proofs.«125821_j61418032333461_1_alg».proof.Proof.PairSpec
import Idealize.ShloMosaic.Lib.ValueIdx
import Idealize.ShloMosaic.PureOps.Ideal.Laws

/-
  The reference program's result is the pairwise label loss.

  The program computes, for samples X and labels L: the squared norm of every row (a product and a sum over the
  256 columns), the inner product of every pair of rows, and from these the mean squared distance of rows i and j,
  (|X i|² + |X j|² − 2·⟨X i, X j⟩)/256; the comparison of the labels of rows i and j as the number 0 or 1; the two
  elementwise terms (the comparison times the distance, and the larger of 0 and (1 − comparison)·(1 − distance)); the total
  of each term over all pairs (i, j); and 10·(total/8192²) of each, added.  Read at explicit coordinates (i, j), each
  stage is the specification's function of the same name: every broadcast reads its operand at the coordinate it
  copies, each sum starts from the word of zero, which adds nothing, and the division by the literal 256 is the
  multiplication by the literal 1/256.
-/

noncomputable section

namespace Cert.ReferenceIdeal.RefValue

open Cert.ReferenceIdeal Cert.ReferenceIdeal.Read Cert.PairLoss Idealize.ShloMosaic Idealize.ShloMosaic.ValueIdx
open scoped BigOperators

/-! ## The composed index maps of the broadcasts, at explicit coordinates -/

/-- The row sum's k-th summand of row i sits at (i, k). -/
theorem idx_v1_eq (i : Fin 8192) (k : Fin 256) : idx_main_v1 (ix1 i) k = ix2 i k :=
  funext fun a => Fin.ext (by match a with | ⟨0, _⟩ => rfl | ⟨1, _⟩ => rfl)

/-- The inner product of rows i and j reads the left operand at (i, k) … -/
theorem lidx_v2_eq (i j : Fin 8192) (k : Fin 256) : lidx_main_v2 (ix2 i j) k = ix2 i k :=
  funext fun a => Fin.ext (by match a with | ⟨0, _⟩ => rfl | ⟨1, _⟩ => rfl)

/-- … and the right operand at (j, k). -/
theorem ridx_v2_eq (i j : Fin 8192) (k : Fin 256) : ridx_main_v2 (ix2 i j) k = ix2 j k :=
  funext fun a => Fin.ext (by match a with | ⟨0, _⟩ => rfl | ⟨1, _⟩ => rfl)

/-- A column vector spread along the rows reads, at (i, j), the vector at i … -/
theorem idx_v3_v5_eq (i j : Fin 8192) : idx_main_v3 (idx_main_v5 (ix2 i j)) = ix1 i :=
  funext fun a => Fin.ext (by match a with | ⟨0, _⟩ => rfl)

/-- … and a row vector spread along the columns reads the vector at j. -/
theorem idx_v4_v6_eq (i j : Fin 8192) : idx_main_v4 (idx_main_v6 (ix2 i j)) = ix1 j :=
  funext fun a => Fin.ext (by match a with | ⟨0, _⟩ => rfl)

/-- The same two for the label vector. -/
theorem idx_v13_v15_eq (i j : Fin 8192) : idx_main_v13 (idx_main_v15 (ix2 i j)) = ix1 i :=
  funext fun a => Fin.ext (by match a with | ⟨0, _⟩ => rfl)

theorem idx_v14_v16_eq (i j : Fin 8192) : idx_main_v14 (idx_main_v16 (ix2 i j)) = ix1 j :=
  funext fun a => Fin.ext (by match a with | ⟨0, _⟩ => rfl)

section
variable (X : (⟨S8192x256, .f32⟩ : BufTy).Contents (Elt Ideal)) (L : (⟨S8192, .i32⟩ : BufTy).Contents (Elt Ideal))

/-! ## The distance -/

/-- The row sum of the squares is the squared norm: the sum starts from zero. -/
theorem v1_apply (i : Fin 8192) : val_main_v1 (F := Ideal) X (ix1 i) = sqn X i := by
  rw [val_main_v1_apply, val_main_cst_apply, Ideal.ofBits_def, Ideal.ofBits_zero_f32, zero_add]
  simp only [val_main_v0_apply, idx_v1_eq, Ideal.mulf_def]
  rfl

/-- The contraction of X with itself over the columns is the inner product of two rows. -/
theorem v2_apply (i j : Fin 8192) : val_main_v2 (F := Ideal) X (ix2 i j) = gram X i j := by
  rw [val_main_v2_apply]
  simp only [lidx_v2_eq, ridx_v2_eq]
  rfl

/-- (|X i|² + |X j|² − 2·⟨X i, X j⟩)/256 is the mean squared distance. -/
theorem v12_apply (i j : Fin 8192) : val_main_v12 (F := Ideal) X (ix2 i j) = dist X i j := by
  rw [val_main_v12_apply, val_main_v10_apply, val_main_v7_apply, val_main_v9_apply, val_main_v5_apply,
    val_main_v3_apply, val_main_v6_apply, val_main_v4_apply, val_main_v8_apply, val_main_cst_0_apply,
    val_main_v11_apply, val_main_cst_1_apply, idx_v3_v5_eq, idx_v4_v6_eq, v1_apply, v1_apply, v2_apply]
  simp only [Ideal.hostDivf_def, Ideal.subf_def, Ideal.addf_def, Ideal.mulf_def, Ideal.ofBits_def, div_256]
  rfl

/-! ## The label comparison -/

/-- The comparison of the labels of rows i and j, as a number. -/
theorem v18_apply (i j : Fin 8192) : val_main_v18 (F := Ideal) L (ix2 i j) = same L i j := by
  rw [val_main_v18_apply, val_main_v17_apply, val_main_v15_apply, val_main_v13_apply, val_main_v16_apply,
    val_main_v14_apply, idx_v13_v15_eq, idx_v14_v16_eq]
  rfl

/-! ## The two terms -/

/-- The comparison times the distance. -/
theorem v28_apply (i j : Fin 8192) : val_main_v28 (F := Ideal) X L (ix2 i j) = fSame X L i j := by
  rw [val_main_v28_apply, v18_apply, v12_apply, Ideal.mulf_def]
  rfl

/-- The larger of 0 and (1 − comparison)·(1 − distance). -/
theorem v25_apply (i j : Fin 8192) : val_main_v25 (F := Ideal) X L (ix2 i j) = fDiff X L i j := by
  rw [val_main_v25_apply, val_main_v24_apply, val_main_cst_4_apply, val_main_v23_apply, val_main_v20_apply,
    val_main_v22_apply, val_main_v19_apply, val_main_cst_2_apply, val_main_v21_apply, val_main_cst_3_apply,
    v18_apply, v12_apply]
  simp only [Ideal.maximumf_def, Ideal.subf_def, Ideal.mulf_def, Ideal.ofBits_def]
  rfl

/-! ## The two totals -/

/-- The total of the first term over all pairs: the sum over the rank-2 index set is the double sum over the
    coordinates, and it starts from zero. -/
theorem v29_apply (i0 : S_.Idx) :
    val_main_v29 (F := Ideal) X L i0 = ∑ i : Fin 8192, ∑ j : Fin 8192, fSame X L i j := by
  rw [val_main_v29_apply, val_main_cst_7_apply, Ideal.ofBits_def, Ideal.ofBits_zero_f32, zero_add]
  refine (sum_idx2 (n0 := 8192) (n1 := 8192) _).trans ?_
  exact Finset.sum_congr rfl fun i _ => Finset.sum_congr rfl fun j _ => v28_apply X L i j

/-- The total of the second term over all pairs. -/
theorem v26_apply (i0 : S_.Idx) :
    val_main_v26 (F := Ideal) X L i0 = ∑ i : Fin 8192, ∑ j : Fin 8192, fDiff X L i j := by
  rw [val_main_v26_apply, val_main_cst_5_apply, Ideal.ofBits_def, Ideal.ofBits_zero_f32, zero_add]
  refine (sum_idx2 (n0 := 8192) (n1 := 8192) _).trans ?_
  exact Finset.sum_congr rfl fun i _ => Finset.sum_congr rfl fun j _ => v25_apply X L i j

/-! ## The result -/

/-- The reference program's result is the loss, at its one index. -/
theorem result_eq :
    Cert.ReferenceIdeal.Read.val_main_v33 (F := Ideal) X L = fun _ => Cert.PairLoss.loss X L := by
  funext i0
  rw [val_main_v33_apply, val_main_v31_apply, val_main_v32_apply, val_main_v30_apply, val_main_v27_apply,
    val_main_cst_9_apply, val_main_cst_10_apply, val_main_cst_8_apply, val_main_cst_6_apply, v29_apply, v26_apply]
  simp only [Ideal.hostDivf_def, Ideal.addf_def, Ideal.mulf_def, Ideal.ofBits_def]
  rfl

end

end Cert.ReferenceIdeal.RefValue

end
-- ==== Proof.lean ====
/-
  The certificate of the pairwise label loss.

  The kernel and the reference compute one number from the samples X (8192 rows of 256) and the labels L:
    10·((Σᵢⱼ same(i,j)·dist(i,j))/8192²) + 10·((Σᵢⱼ max 0 ((1 − same(i,j))·(1 − dist(i,j))))/8192²),
  with dist(i,j) = (|Xᵢ|² + |Xⱼ|² − 2⟨Xᵢ, Xⱼ⟩)·(1/256) and same(i,j) = 1 when the labels agree, else 0
  (Proof/PairSpec.lean).  The reference forms the two sums over all pairs at once and divides the distance by 256
  (Proof/RefValue.lean); the kernel walks the 16 × 16 pairs of tiles of 512 rows, adds each pair's share to two
  running sums kept across the grid, multiplies by the dyadic 1/256, and stores the sums at the last point
  (Proof/KStep.lean, KTile.lean, KChain.lean, KInputs.lean, KFinal.lean, KRun.lean, KValue.lean).  Over the extended
  reals addition commutes and associates, so the order of the sums does not matter, and dividing by 256 is multiplying
  by 1/256 at every extended real; the precondition is not needed.  The ideal pass rewrote nothing, so the kernel's
  idealization claim is trivial; the three frames are the generated ones.
-/
import proofs.«125821_j61418032333461_1_alg».proof.Defs
import proofs.«125821_j61418032333461_1_alg».proof.Proof.Gen.Kernel
import proofs.«125821_j61418032333461_1_alg».proof.Proof.Gen.Kernel.Frame
import proofs.«125821_j61418032333461_1_alg».proof.Proof.Gen.KernelIdeal
import proofs.«125821_j61418032333461_1_alg».proof.Proof.Gen.KernelIdeal.Frame
import proofs.«125821_j61418032333461_1_alg».proof.Proof.Gen.ReferenceIdeal
import proofs.«125821_j61418032333461_1_alg».proof.Proof.Gen.ReferenceIdeal.Run
import proofs.«125821_j61418032333461_1_alg».proof.Proof.Gen.ReferenceIdeal.Read
import proofs.«125821_j61418032333461_1_alg».proof.Proof.Gen.Pre_finite_inputs
import proofs.«125821_j61418032333461_1_alg».proof.Proof.KValue
import proofs.«125821_j61418032333461_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the same samples and labels. -/
theorem algebraic : Cert.algebraic_KernelIdeal_ReferenceIdeal := by
  intro m ρ m' ρ' _ hagree
  refine ⟨fun c => fun _ => Cert.PairLoss.loss (Cert.KernelIdeal.PairValue.Xof m c) (Cert.KernelIdeal.PairValue.Lof m c),
    Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
